-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_arg6 : FVec F S128 .f32) (main_arg7 : FVec F S128 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S100000x256 .f32) (main_arg1 : IVec S2x1600000 32) (main_arg2 : FVec F S256x128 .f32) (main_arg3 : FVec F S128 .f32) (main_arg4 : FVec F S256x128 .f32) (main_arg5 : FVec F S128 .f32) (main_arg6 : FVec F S128 .f32) (main_arg7 : FVec F S128 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S256x128 .f32 := Host.absf main_arg4
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg5 main_arg6 main_arg7 main_v13 main_v16
-- ==== Kernel.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S1x1600000 : Shape := ⟨2, ![1, 1600000]⟩
abbrev S1600000 : Shape := ⟨1, ![1600000]⟩
abbrev S1x128 : Shape := ⟨2, ![1, 128]⟩
abbrev S100000x128 : Shape := ⟨2, ![100000, 128]⟩
abbrev S5000x256 : Shape := ⟨2, ![5000, 256]⟩
abbrev S5000x128 : Shape := ⟨2, ![5000, 128]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S5000 : Shape := ⟨1, ![5000]⟩
abbrev S5000x1 : Shape := ⟨2, ![5000, 1]⟩

abbrev nBuf : Space → Nat
  | .hbm => 71
  | .vmem => 18
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S256x128, .f32⟩
  | .hbm, ⟨3, _⟩ => ⟨S128, .f32⟩
  | .hbm, ⟨4, _⟩ => ⟨S256x128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S1x128, .f32⟩
  | .hbm, ⟨13, _⟩ => ⟨S100000x128, .f32⟩
  | .hbm, ⟨14, _⟩ => ⟨S100000x128, .f32⟩
  | .hbm, ⟨15, _⟩ => ⟨S100000, .i32⟩
  | .hbm, ⟨16, _⟩ => ⟨S1700000, .i32⟩
  | .hbm, ⟨17, _⟩ => ⟨S1700000, .i32⟩
  | .hbm, ⟨18, _⟩ => ⟨S_, .f32⟩
  | .hbm, ⟨19, _⟩ => ⟨S1700000, .f32⟩
  | .hbm, ⟨20, _⟩ => ⟨S_, .f32⟩
  | .hbm, ⟨21, _⟩ => ⟨S100000, .f32⟩
  | .hbm, ⟨22, _⟩ => ⟨S1700000x1, .i32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .i1⟩
  | .hbm, ⟨27, _⟩ => ⟨S100000, .f32⟩
  | .hbm, ⟨28, _⟩ => ⟨S_, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S_, .i32⟩
  | .hbm, ⟨33, _⟩ => ⟨S1700000, .i32⟩
  | .hbm, ⟨34, _⟩ => ⟨S1700000, .i1⟩
  | .hbm, ⟨35, _⟩ => ⟨S_, .i32⟩
  | .hbm, ⟨36, _⟩ => ⟨S1700000, .i32⟩
  | .hbm, ⟨37, _⟩ => ⟨S1700000, .i32⟩
  | .hbm, ⟨38, _⟩ => ⟨S1700000, .i32⟩
  | .hbm, ⟨39, _⟩ => ⟨S1700000x1, .i32⟩
  | .hbm, ⟨40, _⟩ => ⟨S1700000, .f32⟩
  | .hbm, ⟨41, _⟩ => ⟨S_, .i32⟩
  | .hbm, ⟨42, _⟩ => ⟨S1700000, .i32⟩
  | .hbm, ⟨43, _⟩ => ⟨S1700000, .i1⟩
  | .hbm, ⟨44, _⟩ => ⟨S_, .i32⟩
  | .hbm, ⟨45, _⟩ => ⟨S1700000, .i32⟩
  | .hbm, ⟨46, _⟩ => ⟨S1700000, .i32⟩
  | .hbm, ⟨47, _⟩ => ⟨S1700000, .i32⟩
  | .hbm, ⟨48, _⟩ => ⟨S1700000x1, .i32⟩
  | .hbm, ⟨49, _⟩ => ⟨S1700000, .f32⟩
  | .hbm, ⟨50, _⟩ => ⟨S1700000, .f32⟩
  | .hbm, ⟨51, _⟩ => ⟨S_, .i32⟩
  | .hbm, ⟨52, _⟩ => ⟨S1700000, .i32⟩
  | .hbm, ⟨53, _⟩ => ⟨S1700000, .i1⟩
  | .hbm, ⟨54, _⟩ => ⟨S_, .i32⟩
  | .hbm, ⟨55, _⟩ => ⟨S1700000, .i32⟩
  | .hbm, ⟨56, _⟩ => ⟨S1700000, .i32⟩
  | .hbm, ⟨57, _⟩ => ⟨S1700000, .i32⟩
  | .hbm, ⟨58, _⟩ => ⟨S1700000x1, .i32⟩
  | .hbm, ⟨59, _⟩ => ⟨S1700000x128, .f32⟩
  | .hbm, ⟨60, _⟩ => ⟨S1700000x1, .f32⟩
  | .hbm, ⟨61, _⟩ => ⟨S1700000x128, .f32⟩
  | .hbm, ⟨62, _⟩ => ⟨S1700000x128, .f32⟩
  | .hbm, ⟨63, _⟩ => ⟨S_, .f32⟩
  | .hbm, ⟨64, _⟩ => ⟨S100000x128, .f32⟩
  | .hbm, ⟨65, _⟩ => ⟨S1700000x1, .i32⟩
  | .hbm, ⟨66, _⟩ => ⟨S100000x128, .f32⟩
  | .hbm, ⟨67, _⟩ => ⟨S1x128, .f32⟩
  | .hbm, ⟨68, _⟩ => ⟨S1x128, .f32⟩
  | .hbm, ⟨69, _⟩ => ⟨S1x128, .f32⟩
  | .hbm, ⟨70, _⟩ => ⟨S100000x128, .f32⟩
  | .local _ .vmem, ⟨0, _⟩ => ⟨S5000x256, .f32⟩
  | .local _ .vmem, ⟨1, _⟩ => ⟨S5000x256, .f32⟩
  | .local _ .vmem, ⟨2, _⟩ => ⟨S256x128, .f32⟩
  | .local _ .vmem, ⟨3, _⟩ => ⟨S256x128, .f32⟩
  | .local _ .vmem, ⟨4, _⟩ => ⟨S1x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S1x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5_0 : Ref sig .tc := ⟨.hbm, 13, rfl⟩
abbrev main_v5_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_3 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_4 : Ref sig .tc := ⟨.hbm, 41, rfl⟩
abbrev main_v24 : Ref sig .tc := ⟨.hbm, 42, rfl⟩
abbrev main_v25 : Ref sig .tc := ⟨.hbm, 43, rfl⟩
abbrev main_c_5 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_c_6 : Ref sig .tc := ⟨.hbm, 51, rfl⟩
abbrev main_v32 : Ref sig .tc := ⟨.hbm, 52, rfl⟩
abbrev main_v33 : Ref sig .tc := ⟨.hbm, 53, rfl⟩
abbrev main_c_7 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_8 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem2_1 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  shapeCasts_S128_S1x128 : S128.ShapeCasts S1x128
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S5000x128_S5000x128_0_0 : ∀ a, (![0, 0] : Fin 2 → Nat) a + S5000x128.size a ≤ S5000x128.size a
  h_S5000x128 : 0 < S5000x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S5000x128_S5000x128 : S5000x128.ShapeCasts S5000x128
  reduces_S5000x128_S5000 : S5000x128.Reduces [1] S5000
  shapeCasts_S5000_S5000x1 : S5000.ShapeCasts S5000x1
  broadcasts_S5000x1_S5000x128 : S5000x1.Broadcasts S5000x128
  dot_S5000x256_S256x128_S5000x128_1_0_0_1_n_n_wf : DotDims.WF S5000x256 S256x128 S5000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x128.size a ≤ S256x128.size a
  hwx0_2 : ∀ i : grid0.Coords, EltTy.bits .f32 = 32 ∨ (Rect.block (s := S256x128) S256x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S100000x128.size a
  hwx0_4 : ∀ i : grid0.Coords, EltTy.bits .f32 = 32 ∨ (Rect.block (s := S100000x128) S5000x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)

variable [Facts₀]

def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S256x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5_0) S5000x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5_1) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v44) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v45) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v5_1) S5000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v46) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v47) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v48) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S1x1600000 : Shape := ⟨2, ![1, 1600000]⟩
abbrev S1600000 : Shape := ⟨1, ![1600000]⟩
abbrev S100000x128 : Shape := ⟨2, ![100000, 128]⟩
abbrev S1x128 : Shape := ⟨2, ![1, 128]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S100000x1 : Shape := ⟨2, ![100000, 1]⟩

abbrev nBuf : Space → Nat
  | .hbm => 105
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S256x128, .f32⟩
  | .hbm, ⟨3, _⟩ => ⟨S128, .f32⟩
  | .hbm, ⟨4, _⟩ => ⟨S256x128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S100000x128, .f32⟩
  | .hbm, ⟨13, _⟩ => ⟨S1x128, .f32⟩
  | .hbm, ⟨14, _⟩ => ⟨S100000x128, .f32⟩
  | .hbm, ⟨15, _⟩ => ⟨S100000x128, .f32⟩
  | .hbm, ⟨16, _⟩ => ⟨S100000, .i32⟩
  | .hbm, ⟨17, _⟩ => ⟨S1700000, .i32⟩
  | .hbm, ⟨18, _⟩ => ⟨S1700000, .i32⟩
  | .hbm, ⟨19, _⟩ => ⟨S_, .f32⟩
  | .hbm, ⟨20, _⟩ => ⟨S1700000, .f32⟩
  | .hbm, ⟨21, _⟩ => ⟨S_, .f32⟩
  | .hbm, ⟨22, _⟩ => ⟨S100000, .f32⟩
  | .hbm, ⟨23, _⟩ => ⟨S1700000x1, .i32⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S100000, .i1⟩
  | .hbm, ⟨28, _⟩ => ⟨S100000, .f32⟩
  | .hbm, ⟨29, _⟩ => ⟨S_, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S_, .i32⟩
  | .hbm, ⟨34, _⟩ => ⟨S1700000, .i32⟩
  | .hbm, ⟨35, _⟩ => ⟨S1700000, .i1⟩
  | .hbm, ⟨36, _⟩ => ⟨S_, .i32⟩
  | .hbm, ⟨37, _⟩ => ⟨S1700000, .i32⟩
  | .hbm, ⟨38, _⟩ => ⟨S1700000, .i32⟩
  | .hbm, ⟨39, _⟩ => ⟨S1700000, .i32⟩
  | .hbm, ⟨40, _⟩ => ⟨S1700000x1, .i32⟩
  | .hbm, ⟨41, _⟩ => ⟨S1700000, .f32⟩
  | .hbm, ⟨42, _⟩ => ⟨S_, .i32⟩
  | .hbm, ⟨43, _⟩ => ⟨S1700000, .i32⟩
  | .hbm, ⟨44, _⟩ => ⟨S1700000, .i1⟩
  | .hbm, ⟨45, _⟩ => ⟨S_, .i32⟩
  | .hbm, ⟨46, _⟩ => ⟨S1700000, .i32⟩
  | .hbm, ⟨47, _⟩ => ⟨S1700000, .i32⟩
  | .hbm, ⟨48, _⟩ => ⟨S1700000, .i32⟩
  | .hbm, ⟨49, _⟩ => ⟨S1700000x1, .i32⟩
  | .hbm, ⟨50, _⟩ => ⟨S1700000, .f32⟩
  | .hbm, ⟨51, _⟩ => ⟨S1700000, .f32⟩
  | .hbm, ⟨52, _⟩ => ⟨S100000x128, .f32⟩
  | .hbm, ⟨53, _⟩ => ⟨S_, .i32⟩
  | .hbm, ⟨54, _⟩ => ⟨S1700000, .i32⟩
  | .hbm, ⟨55, _⟩ => ⟨S1700000, .i1⟩
  | .hbm, ⟨56, _⟩ => ⟨S_, .i32⟩
  | .hbm, ⟨57, _⟩ => ⟨S1700000, .i32⟩
  | .hbm, ⟨58, _⟩ => ⟨S1700000, .i32⟩
  | .hbm, ⟨59, _⟩ => ⟨S1700000, .i32⟩
  | .hbm, ⟨60, _⟩ => ⟨S1700000x1, .i32⟩
  | .hbm, ⟨61, _⟩ => ⟨S1700000x128, .f32⟩
  | .hbm, ⟨62, _⟩ => ⟨S1700000x1, .f32⟩
  | .hbm, ⟨63, _⟩ => ⟨S1700000x128, .f32⟩
  | .hbm, ⟨64, _⟩ => ⟨S1700000x128, .f32⟩
  | .hbm, ⟨65, _⟩ => ⟨S_, .f32⟩
  | .hbm, ⟨66, _⟩ => ⟨S100000x128, .f32⟩
  | .hbm, ⟨67, _⟩ => ⟨S1700000x1, .i32⟩
  | .hbm, ⟨68, _⟩ => ⟨S100000x128, .f32⟩
  | .hbm, ⟨69, _⟩ => ⟨S1x128, .f32⟩
  | .hbm, ⟨70, _⟩ => ⟨S100000x128, .f32⟩
  | .hbm, ⟨71, _⟩ => ⟨S100000x128, .f32⟩
  | .hbm, ⟨72, _⟩ => ⟨S100000x128, .f32⟩
  | .hbm, ⟨73, _⟩ => ⟨S_, .f32⟩
  | .hbm, ⟨74, _⟩ => ⟨S100000, .f32⟩
  | .hbm, ⟨75, _⟩ => ⟨S100000x1, .f32⟩
  | .hbm, ⟨76, _⟩ => ⟨S_, .f32⟩
  | .hbm, ⟨77, _⟩ => ⟨S100000x1, .f32⟩
  | .hbm, ⟨78, _⟩ => ⟨S100000x1, .f32⟩
  | .hbm, ⟨79, _⟩ => ⟨S100000x128, .f32⟩
  | .hbm, ⟨80, _⟩ => ⟨S100000x128, .f32⟩
  | .hbm, ⟨81, _⟩ => ⟨S100000x128, .f32⟩
  | .hbm, ⟨82, _⟩ => ⟨S_, .f32⟩
  | .hbm, ⟨83, _⟩ => ⟨S100000, .f32⟩
  | .hbm, ⟨84, _⟩ => ⟨S100000x1, .f32⟩
  | .hbm, ⟨85, _⟩ => ⟨S_, .f32⟩
  | .hbm, ⟨86, _⟩ => ⟨S100000x1, .f32⟩
  | .hbm, ⟨87, _⟩ => ⟨S100000x1, .f32⟩
  | .hbm, ⟨88, _⟩ => ⟨S100000x128, .f32⟩
  | .hbm, ⟨89, _⟩ => ⟨S100000x128, .f32⟩
  | .hbm, ⟨90, _⟩ => ⟨S_, .f32⟩
  | .hbm, ⟨91, _⟩ => ⟨S100000x1, .f32⟩
  | .hbm, ⟨92, _⟩ => ⟨S100000x1, .f32⟩
  | .hbm, ⟨93, _⟩ => ⟨S100000x1, .f32⟩
  | .hbm, ⟨94, _⟩ => ⟨S100000x128, .f32⟩
  | .hbm, ⟨95, _⟩ => ⟨S100000x128, .f32⟩
  | .hbm, ⟨96, _⟩ => ⟨S1x128, .f32⟩
  | .hbm, ⟨97, _⟩ => ⟨S100000x128, .f32⟩
  | .hbm, ⟨98, _⟩ => ⟨S100000x128, .f32⟩
  | .hbm, ⟨99, _⟩ => ⟨S1x128, .f32⟩
  | .hbm, ⟨100, _⟩ => ⟨S100000x128, .f32⟩
  | .hbm, ⟨101, _⟩ => ⟨S100000x128, .f32⟩
  | .hbm, ⟨102, _⟩ => ⟨S_, .f32⟩
  | .hbm, ⟨103, _⟩ => ⟨S100000x128, .f32⟩
  | .hbm, ⟨104, _⟩ => ⟨S100000x128, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_cst_0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_1 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_2 : Ref sig .tc := ⟨.hbm, 29, rfl⟩
abbrev main_call0_v0 : Ref sig .tc := ⟨.hbm, 30, rfl⟩
abbrev main_call0_v1 : Ref sig .tc := ⟨.hbm, 31, rfl⟩
abbrev main_v18 : Ref sig .tc := ⟨.hbm, 32, rfl⟩
abbrev main_c : Ref sig .tc := ⟨.hbm, 33, rfl⟩
abbrev main_v19 : Ref sig .tc := ⟨.hbm, 34, rfl⟩
abbrev main_v20 : Ref sig .tc := ⟨.hbm, 35, rfl⟩
abbrev main_c_3 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_c_4 : Ref sig .tc := ⟨.hbm, 42, rfl⟩
abbrev main_v26 : Ref sig .tc := ⟨.hbm, 43, rfl⟩
abbrev main_v27 : Ref sig .tc := ⟨.hbm, 44, rfl⟩
abbrev main_c_5 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_c_6 : Ref sig .tc := ⟨.hbm, 53, rfl⟩
abbrev main_v35 : Ref sig .tc := ⟨.hbm, 54, rfl⟩
abbrev main_v36 : Ref sig .tc := ⟨.hbm, 55, rfl⟩
abbrev main_c_7 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_8 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_9 : Ref sig .tc := ⟨.hbm, 73, rfl⟩
abbrev main_v52 : Ref sig .tc := ⟨.hbm, 74, rfl⟩
abbrev main_v53 : Ref sig .tc := ⟨.hbm, 75, rfl⟩
abbrev main_cst_10 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_cst_12 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_cst_13 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_call1_cst : Ref sig .tc := ⟨.hbm, 102, rfl⟩
abbrev main_call1_v0 : Ref sig .tc := ⟨.hbm, 103, rfl⟩
abbrev main_v76 : Ref sig .tc := ⟨.hbm, 104, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  reducesTo_S100000x128_S100000_d1 : S100000x128.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  dot_S100000x256_S256x128_S100000x128_1_0_0_1_n_n_wf : DotDims.WF S100000x256 S256x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1

variable [Facts₀]

def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

class Facts : Prop extends Facts₀ where

variable [Facts]
-- ==== Proof.Spec.lean ====
/-
  The mathematics both programs compute, stated once over the extended reals and over the literal shapes.

  A graph-convolution layer with a residual branch, a layer normalisation and a rectifier, on 100000 nodes with 256 input
  and 128 output features:
    * `mm x w`       — the feature transform, `(x · w)[i, j] = ∑ₖ x[i, k] · w[k, j]`;
    * `mmb x w r`    — the residual branch, the same product plus a bias row `r[0, j]`;
    * `lnOut a b r g e` — with `h[i, ·] = (a[i, ·] + b[0, ·]) + r[i, ·]` the row to normalise, mean `μᵢ = (∑ₖ h[i, k]) / 128`,
      variance `σ²ᵢ = (∑ₖ (h[i, k] − μᵢ)²) / 128`, the result is `max (((h[i, j] − μᵢ) · rsqrt (σ²ᵢ + ε)) · g[0, j] + e[0, j]) 0`.
  The aggregation over the graph's edges sits between the two and is carried as one function (`Proof/Agg.lean`).
  Every operation is the exact one on the extended reals; the constants are kept as their binary words.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- The shapes, literally. -/
abbrev SNxI : Shape := ⟨2, ![100000, 256]⟩
abbrev SIxO : Shape := ⟨2, ![256, 128]⟩
abbrev SNxO : Shape := ⟨2, ![100000, 128]⟩
abbrev S1xO : Shape := ⟨2, ![1, 128]⟩
abbrev SO : Shape := ⟨1, ![128]⟩

/-- The row count of a lane, 128, as the float word the programs divide by. -/
def lanes : EReal := Ideal.ofBits .f32 0x43000000#32
/-- The variance's guard, the float nearest 1e-5. -/
def eps : EReal := Ideal.ofBits .f32 0x3727C5AC#32

/-- The mean of a row of 128 entries. -/
def rowMean (h : Fin 128 → EReal) : EReal := Ideal.div (∑ k : Fin 128, h k) lanes

/-- The variance of a row of 128 entries about its mean. -/
def rowVar (h : Fin 128 → EReal) : EReal := Ideal.div (∑ k : Fin 128, (h k - rowMean h) * (h k - rowMean h)) lanes

/-- One entry of a normalised, scaled, shifted and rectified row. -/
def lnRow (h g e : Fin 128 → EReal) (j : Fin 128) : EReal :=
  max (((h j - rowMean h) * Ideal.rsqrt (rowVar h + eps)) * g j + e j) 0

/-- The row that is normalised: aggregate plus bias row plus residual, associated as both programs associate it. -/
def hRow (a : FVec Ideal SNxO .f32) (b : FVec Ideal S1xO .f32) (r : FVec Ideal SNxO .f32) (i0 : Fin 100000) : Fin 128 → EReal :=
  fun k => (a (ix2 i0 k) + b (ix2 (0 : Fin 1) k)) + r (ix2 i0 k)

/-- The layer's output from the aggregate `a`, the bias row `b`, the residual `r`, the scale row `g` and the shift row `e`. -/
def lnOut (a : FVec Ideal SNxO .f32) (b : FVec Ideal S1xO .f32) (r : FVec Ideal SNxO .f32) (g e : FVec Ideal S1xO .f32) :
    FVec Ideal SNxO .f32 :=
  fun i => lnRow (hRow a b r (i 0)) (fun k => g (ix2 (0 : Fin 1) k)) (fun k => e (ix2 (0 : Fin 1) k)) (i 1)

/-- The feature transform: a plain matrix product. -/
def mm (x : FVec Ideal SNxI .f32) (w : FVec Ideal SIxO .f32) : FVec Ideal SNxO .f32 :=
  fun i => ∑ k : Fin 256, x (ix2 (i 0) k) * w (ix2 k (i 1))

/-- The residual branch: the product plus a bias row. -/
def mmb (x : FVec Ideal SNxI .f32) (w : FVec Ideal SIxO .f32) (r : FVec Ideal S1xO .f32) : FVec Ideal SNxO .f32 :=
  fun i => mm x w i + r (ix2 (0 : Fin 1) (i 1))

/-- A vector of 128 entries laid out as a one-row matrix. -/
def row (v : FVec Ideal SO .f32) : FVec Ideal S1xO .f32 := fun i => v (ix1 (i 1))

theorem row_apply (v : FVec Ideal SO .f32) (k : Fin 128) : row v (ix2 (0 : Fin 1) k) = v (ix1 k) := rfl

end Cert.Spec

end
-- ==== Proof.Agg.lean ====
/-
  The aggregation over the graph's edges, as ONE function of the transformed features h and the edge list: self-loops appended, each node's degree counted by a scatter-add of ones, the symmetric normalisation 1/sqrt(deg) gathered at both ends of every edge, the source rows of h gathered, scaled and scatter-added into their target rows. Both programs apply exactly this chain of host operations; it is never opened, only named.
-/
import proofs.«109868_j30906584662560_1_alg».proof.Proof.RefRead

set_option maxRecDepth 16384

noncomputable section

namespace Cert.Bridge

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

/-- The aggregate of `h` over the edges `x1` (with self-loops), normalised by the end points' degrees. -/
def agg (h : (⟨S100000x128, .f32⟩ : BufTy).Contents (Elt F)) (x1 : (⟨S2x1600000, .i32⟩ : BufTy).Contents (Elt F)) :
    (⟨S100000x128, .f32⟩ : BufTy).Contents (Elt F) :=
  Host.scatterAdd scatter_S100000x128_S1700000x1_S1700000x128_1_0_0_1 (val_main_v45 (F := F)) (val_main_v46 (F := F) x1)
    (mulf (Host.gather gather_S100000x128_S1700000x1_S1700000x128_1_0_n_n_0_1_1128 h (val_main_v40 (F := F) x1)) (val_main_v43 (F := F) x1))

/-- The reference's aggregate is this function of its own feature transform. -/
theorem val_main_v47_eq (x0 : (⟨S100000x256, .f32⟩ : BufTy).Contents (Elt F)) (x1 : (⟨S2x1600000, .i32⟩ : BufTy).Contents (Elt F))
    (x2 : (⟨S256x128, .f32⟩ : BufTy).Contents (Elt F)) :
    val_main_v47 (F := F) x0 x1 x2 = agg (val_main_v34 (F := F) x0 x2) x1 := rfl

end Cert.Bridge

end
-- ==== Proof.Pay0.lean ====
/-
  The first kernel's two stored values, read at an index of the 5000×128 block: the bf16 casts are the identity on the extended reals and the matrix unit's product into a zero accumulator is the plain sum over the 256 contracted entries; the residual's value adds the bias row.
-/
import proofs.«109868_j30906584662560_1_alg».proof.Proof.Gen.KernelIdeal.Skeleton
import proofs.«109868_j30906584662560_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Bridge.Pay0

open Cert.KernelIdeal Cert.KernelIdeal.Gen Idealize.ShloMosaic Idealize.ShloMosaic.TcCoe Idealize.SL.Sem Idealize.ShloMosaic.ValueIdx
open Idealize.ShloMosaic.Pipeline (Dat)

/-- The left operand's index on its free axis 0 is the output's row. -/
private theorem lhs_0 (i : S5000x128.Idx) (q : dot_S5000x256_S256x128_S5000x128_1_0_0_1_n_n.contr.Idx) :
    (dot_S5000x256_S256x128_S5000x128_1_0_0_1_n_n.lhsIdx i q 0).val = (i 0).val := by
  unfold DotDims.lhsIdx
  rw [dif_neg (show ¬(0 : Fin S5000x256.rank) ∈ dot_S5000x256_S256x128_S5000x128_1_0_0_1_n_n.lhsBatch by decide), dif_pos (show (0 : Fin S5000x256.rank) ∈ dot_S5000x256_S256x128_S5000x128_1_0_0_1_n_n.lhsNonContracting by decide)]
  rfl
/-- The left operand's index on its contracted axis 1 is the contraction's coordinate. -/
private theorem lhs_1 (i : S5000x128.Idx) (q : dot_S5000x256_S256x128_S5000x128_1_0_0_1_n_n.contr.Idx) :
    (dot_S5000x256_S256x128_S5000x128_1_0_0_1_n_n.lhsIdx i q 1).val = (q ⟨0, by decide⟩).val :=
  dot_S5000x256_S256x128_S5000x128_1_0_0_1_n_n.lhsIdx_val_of_single rfl i q
/-- The right operand's index on its contracted axis 0 is the contraction's coordinate. -/
private theorem rhs_0 (i : S5000x128.Idx) (q : dot_S5000x256_S256x128_S5000x128_1_0_0_1_n_n.contr.Idx) :
    (dot_S5000x256_S256x128_S5000x128_1_0_0_1_n_n.rhsIdx i q 0).val = (q ⟨0, by decide⟩).val :=
  dot_S5000x256_S256x128_S5000x128_1_0_0_1_n_n.rhsIdx_val_of_single rfl i q
/-- The right operand's index on its free axis 1 is the output's column. -/
private theorem rhs_1 (i : S5000x128.Idx) (q : dot_S5000x256_S256x128_S5000x128_1_0_0_1_n_n.contr.Idx) :
    (dot_S5000x256_S256x128_S5000x128_1_0_0_1_n_n.rhsIdx i q 1).val = (i 1).val := by
  unfold DotDims.rhsIdx
  rw [dif_neg (show ¬(1 : Fin S256x128.rank) ∈ dot_S5000x256_S256x128_S5000x128_1_0_0_1_n_n.rhsBatch by decide), dif_pos (show (1 : Fin S256x128.rank) ∈ dot_S5000x256_S256x128_S5000x128_1_0_0_1_n_n.rhsNonContracting by decide)]
  rfl

/-- The matrix unit's product of two operands into a zero accumulator, read at (p, q): the sum over the 256 contracted entries. -/
private theorem matmul_zero_apply {φ₁ φ₂ : FTy} (a : FVec Ideal S5000x256 φ₁) (c : FVec Ideal S256x128 φ₂) (p : Fin 5000) (q : Fin 128) :
    FloatOps.matmul dot_S5000x256_S256x128_S5000x128_1_0_0_1_n_n none a c (constant (F := Ideal) S5000x128 .f32 0x00000000#32) (ix2 p q)
      = ∑ k : Fin 256, a (ix2 p k) * c (ix2 k q) := by
  rw [Ideal.matmul_constant_zero_apply, ← Equiv.sum_comp (ValueIdx.contrEquiv1 dot_S5000x256_S256x128_S5000x128_1_0_0_1_n_n 256 rfl rfl).symm]
  refine Finset.sum_congr rfl fun k _ => ?_
  have hk := ValueIdx.contrEquiv1_symm_val dot_S5000x256_S256x128_S5000x128_1_0_0_1_n_n 256 rfl rfl k
  have el : dot_S5000x256_S256x128_S5000x128_1_0_0_1_n_n.lhsIdx (ix2 p q) ((ValueIdx.contrEquiv1 dot_S5000x256_S256x128_S5000x128_1_0_0_1_n_n 256 rfl rfl).symm k) = ix2 p k := funext fun a => Fin.ext (by
    match a with
    | ⟨0, _⟩ => exact lhs_0 _ _
    | ⟨1, _⟩ => exact (lhs_1 _ _).trans hk)
  have er : dot_S5000x256_S256x128_S5000x128_1_0_0_1_n_n.rhsIdx (ix2 p q) ((ValueIdx.contrEquiv1 dot_S5000x256_S256x128_S5000x128_1_0_0_1_n_n 256 rfl rfl).symm k) = ix2 k q := funext fun a => Fin.ext (by
    match a with
    | ⟨0, _⟩ => exact (rhs_0 _ _).trans hk
    | ⟨1, _⟩ => exact rhs_1 _ _)
  rw [el, er]

/-- The feature transform's block: entry (p, q) is the sum over k of x[p, k] · w[k, q]. -/
theorem pay2_apply (x : Vec Ideal S5000x256 .f32) (w : Vec Ideal S256x128 .f32) (p : Fin 5000) (q : Fin 128) :
    k0_pay2 (F := Ideal) x w (ix2 p q) = ∑ k : Fin 256, x (ix2 p k) * w (ix2 k q) := by
  unfold k0_pay2 k0_pay1
  simp only [matmul]
  rw [matmul_zero_apply]
  rfl

/-- The residual branch's block: the same sum with the other weight, plus the bias row's entry q. -/
theorem pay3_apply (x : Vec Ideal S5000x256 .f32) (w : Vec Ideal S256x128 .f32) (b : Vec Ideal S1x128 .f32) (p : Fin 5000) (q : Fin 128) :
    k0_pay3 (F := Ideal) x w b (ix2 p q) = (∑ k : Fin 256, x (ix2 p k) * w (ix2 k q)) + b (ix2 (0 : Fin 1) q) := by
  unfold k0_pay3 k0_pay1
  simp only [matmul]
  rw [addf_apply, matmul_zero_apply, shapeCast_self, broadcastTo_1b_ab_apply]
  rfl

end Cert.Bridge.Pay0

end
-- ==== Proof.Blocks0.lean ====
/-
  From blocks to arrays, first kernel: grid point t writes rows 5000·t … 5000·t + 4999 of each output, the twenty points cover all 100000 rows, and each block is the restriction of one whole-array function of the arrays the region is entered with — the matrix product `Cert.Spec.mm`, and `Cert.Spec.mmb` with the bias row.
-/
import proofs.«109868_j30906584662560_1_alg».proof.Proof.Gen.KernelIdeal.Frame
import proofs.«109868_j30906584662560_1_alg».proof.Proof.Pay0
import proofs.«109868_j30906584662560_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Bridge.Blocks0

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The zero offsets of a whole-block access, as the constant function. -/
private theorem zeros2 : (![0, 0] : Fin 2 → Nat) = fun _ => 0 := funext fun a => by fin_cases a <;> rfl

/-- The block indices at grid point t, decided over the twenty points: the row-blocked operand and the two outputs sit at
    row block t, column block 0; the two weights and the bias row are whole, at block (0, 0); and t is below 20. -/
private theorem blockIndex : ∀ t : Fin cfg0.N,
    win0_0.index t (0 : Fin 2) = t.val
    ∧ win0_0.index t (1 : Fin 2) = 0
    ∧ win0_1.index t (0 : Fin 2) = 0
    ∧ win0_1.index t (1 : Fin 2) = 0
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 2) = t.val
    ∧ win0_4.index t (1 : Fin 2) = 0
    ∧ win0_5.index t (0 : Fin 2) = t.val
    ∧ win0_5.index t (1 : Fin 2) = 0
    ∧ t.val < 20 :=
  (by decide +kernel : ∀ t : Fin grid0.N, _)

/-! ## The first output: the matrix product -/

/-- What grid point t writes back to the first output is rows 5000·t … 5000·t + 4999 of the matrix product x · w:
    entry (p, q) of the block is ∑ₖ x[5000·t + p, k] · w[k, q]. -/
private theorem rowBlock_mm (c : Dev nD) (t : Fin cfg0.N) :
    (dat0 (F := Ideal) V c).flushed 4 t
      = ((cfg0.win 4).blk t).view.read (Elt Ideal) (Cert.Spec.mm (V c main_arg0) (V c main_arg2)) := by
  show (cfg0.win 4).cut (grid0.coords t) ((dat0 V c).after 4 t) = _
  rw [after0_4]
  unfold out0_4
  rw [View.canon_unit_zero zeros2]
  simp only [View.ld_unit_zero (S := S5000x256) zeros2, View.ld_unit_zero (S := S256x128) zeros2]
  funext j
  obtain ⟨p, q, rfl⟩ : ∃ (p : Fin 5000) (q : Fin 128), j = ix2 p q := ⟨j 0, j 1, eq_ix2 j⟩
  refine (Cert.Bridge.Pay0.pay2_apply _ _ p q).trans ?_
  show _ = Cert.Spec.mm (V c main_arg0) (V c main_arg2) (((cfg0.win 4).blk t).view.emb (ix2 p q))
  unfold Cert.Spec.mm
  obtain ⟨e0, e1, e2, e3, e4, e5, e6, e7, e8, e9, e10, e11, hN⟩ := blockIndex t
  refine Finset.sum_congr rfl fun k _ => ?_
  -- the left operand's block: row 5000·t + p, column k
  have hx : iblk0 V c 0 t (ix2 p k) = V c main_arg0 (ix2 ((((cfg0.win 4).blk t).view.emb (ix2 p q)) 0) k) := by
    show V c main_arg0 (((cfg0.win 0).blk t).view.emb (ix2 p k)) = _
    congr 1
    funext a; apply Fin.ext
    match a with
    | ⟨0, _⟩ => show win0_0.index t (0 : Fin 2) * 5000 + 1 * p.val = win0_4.index t (0 : Fin 2) * 5000 + 1 * p.val; omega
    | ⟨1, _⟩ => show win0_0.index t (1 : Fin 2) * 256 + 1 * k.val = k.val; omega
  -- the weight is whole: row k, column q
  have hw : iblk0 V c 1 t (ix2 k q) = V c main_arg2 (ix2 k ((((cfg0.win 4).blk t).view.emb (ix2 p q)) 1)) := by
    show V c main_arg2 (((cfg0.win 1).blk t).view.emb (ix2 k q)) = _
    congr 1
    funext a; apply Fin.ext
    match a with
    | ⟨0, _⟩ => show win0_1.index t (0 : Fin 2) * 256 + 1 * k.val = k.val; omega
    | ⟨1, _⟩ => show win0_1.index t (1 : Fin 2) * 128 + 1 * q.val = win0_4.index t (1 : Fin 2) * 128 + 1 * q.val; omega
  rw [hx, hw]

/-- An index of the first output is in point t's block iff each coordinate is in the block's range on its axis. -/
private theorem mem_rowBlock4 (t : Fin cfg0.N) (i : S100000x128.Idx) :
    i ∈ ((cfg0.win 4).blk t).view.set
      ↔ ∀ a : Fin 2, win0_4.index t a * S5000x128.size a ≤ (i a).val ∧ (i a).val < win0_4.index t a * S5000x128.size a + S5000x128.size a := by
  show i ∈ ((View.whole main_v5_0).slice (win0_4.rect t)).set ↔ _
  rw [View.set_slice_whole, Rect.mem_set_unit]
  exact Iff.rfl

/-- Every index of the first output is written: row r by grid point r / 5000. -/
private theorem rows_covered4 (i : S100000x128.Idx) :
    ∃ t : Fin cfg0.N, (cfg0.win 4).flush t = true ∧ i ∈ ((cfg0.win 4).blk t).view.set := by
  have hi0 : (i 0).val < 100000 := (i 0).isLt
  have hi1 : (i 1).val < 128 := (i 1).isLt
  obtain ⟨t, ht⟩ : ∃ t : Fin cfg0.N, t.val = (i 0).val / 5000 :=
    ⟨⟨(i 0).val / 5000, by show (i 0).val / 5000 < grid0.N; rw [N_0]; omega⟩, rfl⟩
  obtain ⟨e0, e1, e2, e3, e4, e5, e6, e7, e8, e9, e10, e11, hN⟩ := blockIndex t
  refine ⟨t, flush0_4 t, ?_⟩
  rw [mem_rowBlock4]
  intro a
  match a with
  | ⟨0, _⟩ => show win0_4.index t (0 : Fin 2) * 5000 ≤ (i 0).val ∧ (i 0).val < win0_4.index t (0 : Fin 2) * 5000 + 5000; omega
  | ⟨1, _⟩ => show win0_4.index t (1 : Fin 2) * 128 ≤ (i 1).val ∧ (i 1).val < win0_4.index t (1 : Fin 2) * 128 + 128; omega

/-- After the first region its first output array is the matrix product of the arrays it was entered with. -/
theorem final0_4 (c : Dev nD) :
    (dat0 (F := Ideal) V c).arrAt 4 cfg0.N = Cert.Spec.mm (V c main_arg0) (V c main_arg2) :=
  (dat0 (F := Ideal) V c).arrAt_eq_of_cover 4 (Cert.Spec.mm (V c main_arg0) (V c main_arg2))
    (fun t _ => rowBlock_mm V c t) rows_covered4

/-! ## The second output: the product with the other weight, plus the bias row -/

/-- What grid point t writes back to the second output is rows 5000·t … 5000·t + 4999 of x · w' + b:
    entry (p, q) of the block is ∑ₖ x[5000·t + p, k] · w'[k, q] + b[0, q]. -/
private theorem rowBlock_mmb (c : Dev nD) (t : Fin cfg0.N) :
    (dat0 (F := Ideal) V c).flushed 5 t
      = ((cfg0.win 5).blk t).view.read (Elt Ideal) (Cert.Spec.mmb (V c main_arg0) (V c main_arg4) (V c main_v4)) := by
  show (cfg0.win 5).cut (grid0.coords t) ((dat0 V c).after 5 t) = _
  rw [after0_5]
  unfold out0_5
  rw [View.canon_unit_zero zeros2]
  simp only [View.ld_unit_zero (S := S5000x256) zeros2, View.ld_unit_zero (S := S256x128) zeros2,
    View.ld_unit_zero (S := S1x128) zeros2]
  funext j
  obtain ⟨p, q, rfl⟩ : ∃ (p : Fin 5000) (q : Fin 128), j = ix2 p q := ⟨j 0, j 1, eq_ix2 j⟩
  refine (Cert.Bridge.Pay0.pay3_apply _ _ _ p q).trans ?_
  show _ = Cert.Spec.mmb (V c main_arg0) (V c main_arg4) (V c main_v4) (((cfg0.win 5).blk t).view.emb (ix2 p q))
  unfold Cert.Spec.mmb Cert.Spec.mm
  obtain ⟨e0, e1, e2, e3, e4, e5, e6, e7, e8, e9, e10, e11, hN⟩ := blockIndex t
  -- the bias row is whole: row 0, column q
  have hb : iblk0 V c 3 t (ix2 (0 : Fin 1) q)
      = V c main_v4 (ix2 (0 : Fin 1) ((((cfg0.win 5).blk t).view.emb (ix2 p q)) 1)) := by
    show V c main_v4 (((cfg0.win 3).blk t).view.emb (ix2 (0 : Fin 1) q)) = _
    congr 1
    funext a; apply Fin.ext
    match a with
    | ⟨0, _⟩ => show win0_3.index t (0 : Fin 2) * 1 + 1 * (0 : Fin 1).val = (0 : Fin 1).val; omega
    | ⟨1, _⟩ => show win0_3.index t (1 : Fin 2) * 128 + 1 * q.val = win0_5.index t (1 : Fin 2) * 128 + 1 * q.val; omega
  rw [hb]
  congr 1
  refine Finset.sum_congr rfl fun k _ => ?_
  -- the left operand's block: row 5000·t + p, column k
  have hx : iblk0 V c 0 t (ix2 p k) = V c main_arg0 (ix2 ((((cfg0.win 5).blk t).view.emb (ix2 p q)) 0) k) := by
    show V c main_arg0 (((cfg0.win 0).blk t).view.emb (ix2 p k)) = _
    congr 1
    funext a; apply Fin.ext
    match a with
    | ⟨0, _⟩ => show win0_0.index t (0 : Fin 2) * 5000 + 1 * p.val = win0_5.index t (0 : Fin 2) * 5000 + 1 * p.val; omega
    | ⟨1, _⟩ => show win0_0.index t (1 : Fin 2) * 256 + 1 * k.val = k.val; omega
  -- the weight is whole: row k, column q
  have hw : iblk0 V c 2 t (ix2 k q) = V c main_arg4 (ix2 k ((((cfg0.win 5).blk t).view.emb (ix2 p q)) 1)) := by
    show V c main_arg4 (((cfg0.win 2).blk t).view.emb (ix2 k q)) = _
    congr 1
    funext a; apply Fin.ext
    match a with
    | ⟨0, _⟩ => show win0_2.index t (0 : Fin 2) * 256 + 1 * k.val = k.val; omega
    | ⟨1, _⟩ => show win0_2.index t (1 : Fin 2) * 128 + 1 * q.val = win0_5.index t (1 : Fin 2) * 128 + 1 * q.val; omega
  rw [hx, hw]

/-- An index of the second output is in point t's block iff each coordinate is in the block's range on its axis. -/
private theorem mem_rowBlock5 (t : Fin cfg0.N) (i : S100000x128.Idx) :
    i ∈ ((cfg0.win 5).blk t).view.set
      ↔ ∀ a : Fin 2, win0_5.index t a * S5000x128.size a ≤ (i a).val ∧ (i a).val < win0_5.index t a * S5000x128.size a + S5000x128.size a := by
  show i ∈ ((View.whole main_v5_1).slice (win0_5.rect t)).set ↔ _
  rw [View.set_slice_whole, Rect.mem_set_unit]
  exact Iff.rfl

/-- Every index of the second output is written: row r by grid point r / 5000. -/
private theorem rows_covered5 (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  obtain ⟨t, ht⟩ : ∃ t : Fin cfg0.N, t.val = (i 0).val / 5000 :=
    ⟨⟨(i 0).val / 5000, by show (i 0).val / 5000 < grid0.N; rw [N_0]; omega⟩, rfl⟩
  obtain ⟨e0, e1, e2, e3, e4, e5, e6, e7, e8, e9, e10, e11, hN⟩ := blockIndex t
  refine ⟨t, flush0_5 t, ?_⟩
  rw [mem_rowBlock5]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 128 ≤ (i 1).val ∧ (i 1).val < win0_5.index t (1 : Fin 2) * 128 + 128; omega

/-- After the first region its second output array is the product with the other weight plus the bias row. -/
theorem final0_5 (c : Dev nD) :
    (dat0 (F := Ideal) V c).arrAt 5 cfg0.N = Cert.Spec.mmb (V c main_arg0) (V c main_arg4) (V c main_v4) :=
  (dat0 (F := Ideal) V c).arrAt_eq_of_cover 5 (Cert.Spec.mmb (V c main_arg0) (V c main_arg4) (V c main_v4))
    (fun t _ => rowBlock_mmb V c t) rows_covered5

end Cert.Bridge.Blocks0

end
-- ==== Proof.Pay1.lean ====
/-
  The second kernel's stored value, read at an index of the 5000×128 block: row p of the block is normalised by its own mean and variance over the 128 lanes, scaled, shifted and rectified — `Cert.Spec.lnRow` of the row (a + b) + r.
-/
import proofs.«109868_j30906584662560_1_alg».proof.Proof.Gen.KernelIdeal.Skeleton
import proofs.«109868_j30906584662560_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Bridge.Pay1

open Cert.KernelIdeal Cert.KernelIdeal.Gen Idealize.ShloMosaic Idealize.ShloMosaic.TcCoe Idealize.SL.Sem Idealize.ShloMosaic.ValueIdx
open Idealize.ShloMosaic.Pipeline (Dat)

section Layout
variable {α : Type}

/-- An `[a]` array cast to the column `[a, 1]` reads, at `(p, u)`, the operand at `p`. -/
private theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, c)`, the column's entry of row `p`. -/
private theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- A reciprocal square root taken entry by entry reads, at an index, the reciprocal square root of the entry. -/
private theorem rsqrt_apply {s : Shape} {φ : FTy} (x : FVec Ideal s φ) (i : s.Idx) : rsqrt x i = Ideal.rsqrt (x i) := rfl

/-- The sum over the 128 lanes of a 5000×128 block, at row `p`. -/
private theorem rowSum_apply (v : FVec Ideal S5000x128 .f32) (hφ : FKind.Formats .f32)
    (hacc : (0x00000000#32 : BitVec 32) = 0x00000000#32) (p : Fin 5000) :
    multiReduction (F := Ideal) .add [1] S5000 v 0x00000000#32 reduces_S5000x128_S5000 hφ hacc (ix1 p)
      = ∑ k : Fin 128, v (ix2 p k) := by
  refine (Ideal.multiReduction_add_single v 0x00000000#32 reduces_S5000x128_S5000 hφ hacc (ix1 p)).trans ?_
  refine Finset.sum_congr rfl fun k _ => congrArg v ?_
  funext c
  match c with
  | ⟨0, _⟩ => rfl
  | ⟨1, _⟩ => rfl

/-- Entry (p, q) of the block the second kernel stores. -/
theorem pay1_apply (a : Vec Ideal S5000x128 .f32) (b : Vec Ideal S1x128 .f32) (r : Vec Ideal S5000x128 .f32)
    (g e : Vec Ideal S1x128 .f32) (p : Fin 5000) (q : Fin 128) :
    k1_pay1 (F := Ideal) a b r g e (ix2 p q)
      = Cert.Spec.lnRow (fun k : Fin 128 => (a (ix2 p k) + b (ix2 (0 : Fin 1) k)) + r (ix2 p k))
          (fun k : Fin 128 => g (ix2 (0 : Fin 1) k)) (fun k : Fin 128 => e (ix2 (0 : Fin 1) k)) q := by
  -- every entrywise operation reads through to the entry; a cast to the same shape is the identity; the one-row
  -- operands are read at their row 0 and the column of row statistics at row p
  unfold k1_pay1
  simp only [maximumf_apply, addf_apply, mulf_apply, subf_apply, divf_apply, broadcast_apply, rsqrt_apply,
    shapeCast_self, broadcastTo_1b_ab_apply, broadcastTo_a1_ab_apply, shapeCast_a_a1_apply]
  -- the two lane sums of row p: the sum of the row, and the sum of the squared deviations from the mean
  rw [rowSum_apply, rowSum_apply]
  simp only [addf_apply, mulf_apply, subf_apply, divf_apply, broadcast_apply,
    broadcastTo_1b_ab_apply, broadcastTo_a1_ab_apply, shapeCast_a_a1_apply]
  -- the mean inside each squared deviation is again the sum of the row over the lane count
  rw [rowSum_apply]
  -- the row's entries are (a + b) + r; the constants are their binary words, the rectifier's bound is 0
  simp only [addf_apply, broadcastTo_1b_ab_apply, Ideal.ofBits_def, Ideal.ofBits_zero_f32]
  -- both sides are now the same expression in the row's mean and variance
  simp only [Cert.Spec.lnRow, Cert.Spec.rowVar, Cert.Spec.rowMean, Cert.Spec.lanes, Cert.Spec.eps]

end Cert.Bridge.Pay1

end
-- ==== Proof.Blocks1.lean ====
/-
  From blocks to the array, second kernel: grid point t writes rows 5000·t … 5000·t + 4999, the twenty points cover all 100000 rows, and a row's result depends only on that row, so each block is the restriction of `Cert.Spec.lnOut` of the arrays the region is entered with.
-/
import proofs.«109868_j30906584662560_1_alg».proof.Proof.Gen.KernelIdeal.Frame
import proofs.«109868_j30906584662560_1_alg».proof.Proof.Pay1
import proofs.«109868_j30906584662560_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Bridge.Blocks1

open Cert.KernelIdeal Cert.KernelIdeal.Gen Idealize.ShloMosaic Idealize.ShloMosaic.TcCoe Idealize.SL.Sem Idealize.ShloMosaic.ValueIdx
open Idealize.ShloMosaic.Pipeline (Dat)

/-- The zero offsets of a whole-block access, as the constant function. -/
private theorem hz : (![0, 0] : Fin 2 → Nat) = fun _ => 0 := funext fun a => by fin_cases a <;> rfl

/-- The windows' block indices at every grid point: the three row-blocked windows sit at block (t, 0), the three one-row windows at block (0, 0). -/
private theorem idx_facts : ∀ t : Fin cfg1.N,
    win1_0.index t (0 : Fin 2) = t.val ∧ win1_0.index t (1 : Fin 2) = 0
    ∧ win1_2.index t (0 : Fin 2) = t.val ∧ win1_2.index t (1 : Fin 2) = 0
    ∧ win1_5.index t (0 : Fin 2) = t.val ∧ win1_5.index t (1 : Fin 2) = 0
    ∧ win1_1.index t (0 : Fin 2) = 0 ∧ win1_1.index t (1 : Fin 2) = 0
    ∧ win1_3.index t (0 : Fin 2) = 0 ∧ win1_3.index t (1 : Fin 2) = 0
    ∧ win1_4.index t (0 : Fin 2) = 0 ∧ win1_4.index t (1 : Fin 2) = 0 :=
  (by decide +kernel : ∀ t : Fin grid1.N, _)

/-- Every row block is some point's: block r is point r's. -/
private theorem idx_onto : ∀ r : Fin 20, ∃ t : Fin cfg1.N, t.val = r.val :=
  (by decide +kernel : ∀ r : Fin 20, ∃ t : Fin grid1.N, t.val = r.val)

/-- The grid has twenty points. -/
private theorem t_lt (t : Fin cfg1.N) : t.val < 20 := lt_of_lt_of_eq t.isLt N_1

variable (V : (c : Dev nD) → (b : Ref sig .tc) → Buf (Elt Ideal) ((c : Thread nD τ).loc b))

/-- Row p of the aggregate's block at point t is row 5000·t + p of the aggregate. -/
private theorem agg_blk (c : Dev nD) (t : Fin cfg1.N) (p : Fin 5000) (h : 5000 * t.val + p.val < 100000) (k : Fin 128) :
    iblk1 V c 0 t (ix2 p k) = (V c main_v44 : S100000x128.Idx → Elt Ideal .f32) (ix2 ⟨5000 * t.val + p.val, h⟩ k) := by
  obtain ⟨e0, e1, -⟩ := idx_facts t
  show V c main_v44 (((cfg1.win 0).blk t).view.emb (ix2 p k)) = V c main_v44 _
  congr 1
  funext a; apply Fin.ext
  match a with
  | ⟨0, _⟩ => show win1_0.index t (0 : Fin 2) * 5000 + 1 * p.val = 5000 * t.val + p.val; rw [e0]; omega
  | ⟨1, _⟩ => show win1_0.index t (1 : Fin 2) * 128 + 1 * k.val = k.val; rw [e1]; omega

/-- Row p of the residual's block at point t is row 5000·t + p of the residual. -/
private theorem res_blk (c : Dev nD) (t : Fin cfg1.N) (p : Fin 5000) (h : 5000 * t.val + p.val < 100000) (k : Fin 128) :
    iblk1 V c 2 t (ix2 p k) = (V c main_v5_1 : S100000x128.Idx → Elt Ideal .f32) (ix2 ⟨5000 * t.val + p.val, h⟩ k) := by
  obtain ⟨-, -, e0, e1, -⟩ := idx_facts t
  show V c main_v5_1 (((cfg1.win 2).blk t).view.emb (ix2 p k)) = V c main_v5_1 _
  congr 1
  funext a; apply Fin.ext
  match a with
  | ⟨0, _⟩ => show win1_2.index t (0 : Fin 2) * 5000 + 1 * p.val = 5000 * t.val + p.val; rw [e0]; omega
  | ⟨1, _⟩ => show win1_2.index t (1 : Fin 2) * 128 + 1 * k.val = k.val; rw [e1]; omega

/-- The bias row's block at any point is the bias row. -/
private theorem bias_blk (c : Dev nD) (t : Fin cfg1.N) (k : Fin 128) :
    iblk1 V c 1 t (ix2 (0 : Fin 1) k) = (V c main_v45 : S1x128.Idx → Elt Ideal .f32) (ix2 (0 : Fin 1) k) := by
  obtain ⟨-, -, -, -, -, -, e0, e1, -⟩ := idx_facts t
  show V c main_v45 (((cfg1.win 1).blk t).view.emb (ix2 (0 : Fin 1) k)) = V c main_v45 _
  congr 1
  funext a; apply Fin.ext
  match a with
  | ⟨0, _⟩ => show win1_1.index t (0 : Fin 2) * 1 + 1 * (0 : Fin 1).val = (0 : Fin 1).val; rw [e0]; rfl
  | ⟨1, _⟩ => show win1_1.index t (1 : Fin 2) * 128 + 1 * k.val = k.val; rw [e1]; omega

/-- The scale row's block at any point is the scale row. -/
private theorem scale_blk (c : Dev nD) (t : Fin cfg1.N) (k : Fin 128) :
    iblk1 V c 3 t (ix2 (0 : Fin 1) k) = (V c main_v46 : S1x128.Idx → Elt Ideal .f32) (ix2 (0 : Fin 1) k) := by
  obtain ⟨-, -, -, -, -, -, -, -, e0, e1, -⟩ := idx_facts t
  show V c main_v46 (((cfg1.win 3).blk t).view.emb (ix2 (0 : Fin 1) k)) = V c main_v46 _
  congr 1
  funext a; apply Fin.ext
  match a with
  | ⟨0, _⟩ => show win1_3.index t (0 : Fin 2) * 1 + 1 * (0 : Fin 1).val = (0 : Fin 1).val; rw [e0]; rfl
  | ⟨1, _⟩ => show win1_3.index t (1 : Fin 2) * 128 + 1 * k.val = k.val; rw [e1]; omega

/-- The shift row's block at any point is the shift row. -/
private theorem shift_blk (c : Dev nD) (t : Fin cfg1.N) (k : Fin 128) :
    iblk1 V c 4 t (ix2 (0 : Fin 1) k) = (V c main_v47 : S1x128.Idx → Elt Ideal .f32) (ix2 (0 : Fin 1) k) := by
  obtain ⟨-, -, -, -, -, -, -, -, -, -, e0, e1⟩ := idx_facts t
  show V c main_v47 (((cfg1.win 4).blk t).view.emb (ix2 (0 : Fin 1) k)) = V c main_v47 _
  congr 1
  funext a; apply Fin.ext
  match a with
  | ⟨0, _⟩ => show win1_4.index t (0 : Fin 2) * 1 + 1 * (0 : Fin 1).val = (0 : Fin 1).val; rw [e0]; rfl
  | ⟨1, _⟩ => show win1_4.index t (1 : Fin 2) * 128 + 1 * k.val = k.val; rw [e1]; omega

/-- Entry (p, q) of the output's block at point t sits at (5000·t + p, q) of the output. -/
private theorem out_emb (t : Fin cfg1.N) (p : Fin 5000) (h : 5000 * t.val + p.val < 100000) (q : Fin 128) :
    ((cfg1.win 5).blk t).view.emb (ix2 p q) = (ix2 ⟨5000 * t.val + p.val, h⟩ q : S100000x128.Idx) := by
  obtain ⟨-, -, -, -, e0, e1, -⟩ := idx_facts t
  funext a; apply Fin.ext
  match a with
  | ⟨0, _⟩ => show win1_5.index t (0 : Fin 2) * 5000 + 1 * p.val = 5000 * t.val + p.val; rw [e0]; omega
  | ⟨1, _⟩ => show win1_5.index t (1 : Fin 2) * 128 + 1 * q.val = q.val; rw [e1]; omega

/-- What point t writes back is block t of the layer output of the arrays the region is entered with. -/
private theorem flushed_eq (c : Dev nD) (t : Fin cfg1.N) :
    (dat1 (F := Ideal) V c).flushed 5 t
      = ((cfg1.win 5).blk t).view.read (Elt Ideal)
          (Cert.Spec.lnOut (V c main_v44) (V c main_v45) (V c main_v5_1) (V c main_v46) (V c main_v47)) := by
  show (cfg1.win 5).cut (grid1.coords t) ((dat1 V c).after 5 t) = _
  rw [after1_5]
  unfold out1_5
  rw [View.canon_unit_zero hz]
  simp only [View.ld_unit_zero (S := S5000x128) hz, View.ld_unit_zero (S := S1x128) hz]
  funext j
  obtain ⟨p, q, rfl⟩ : ∃ (p : Fin 5000) (q : Fin 128), j = ix2 p q := ⟨j 0, j 1, eq_ix2 j⟩
  refine (Cert.Bridge.Pay1.pay1_apply _ _ _ _ _ p q).trans ?_
  have hr : 5000 * t.val + p.val < 100000 := by have := t_lt t; have := p.isLt; omega
  show _ = Cert.Spec.lnOut (V c main_v44) (V c main_v45) (V c main_v5_1) (V c main_v46) (V c main_v47)
      (((cfg1.win 5).blk t).view.emb (ix2 p q))
  rw [out_emb t p hr q]
  show _ = Cert.Spec.lnRow (Cert.Spec.hRow (V c main_v44) (V c main_v45) (V c main_v5_1) ⟨5000 * t.val + p.val, hr⟩)
      (fun k => (V c main_v46 : S1x128.Idx → Elt Ideal .f32) (ix2 (0 : Fin 1) k))
      (fun k => (V c main_v47 : S1x128.Idx → Elt Ideal .f32) (ix2 (0 : Fin 1) k)) q
  unfold Cert.Spec.hRow
  simp only [agg_blk V c t p hr, res_blk V c t p hr, bias_blk V c t, scale_blk V c t, shift_blk V c t]

/-- An index of the output is in point t's block iff each coordinate is in the block's range on its axis. -/
private theorem mem_blk (t : Fin cfg1.N) (i : S100000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v48).slice (win1_5.rect t)).set ↔ _
  rw [View.set_slice_whole, Rect.mem_set_unit]
  exact Iff.rfl

/-- Every index of the output is in the block of the point its row falls in, and every point writes back. -/
private theorem cover (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  obtain ⟨t, ht⟩ := idx_onto ⟨(i 0).val / 5000, by omega⟩
  have ht' : t.val = (i 0).val / 5000 := ht
  obtain ⟨-, -, -, -, e0, e1, -⟩ := idx_facts t
  refine ⟨t, flush1_5 t, ?_⟩
  rw [mem_blk]
  intro a
  match a with
  | ⟨0, _⟩ => show win1_5.index t (0 : Fin 2) * 5000 ≤ (i 0).val ∧ (i 0).val < win1_5.index t (0 : Fin 2) * 5000 + 5000; rw [e0]; omega
  | ⟨1, _⟩ => show win1_5.index t (1 : Fin 2) * 128 ≤ (i 1).val ∧ (i 1).val < win1_5.index t (1 : Fin 2) * 128 + 128; rw [e1]; omega

/-- After the second region its output array is the normalised, rectified layer output of the arrays it was entered with. -/
theorem final1_5 (c : Dev nD) :
    (dat1 (F := Ideal) V c).arrAt 5 cfg1.N
      = Cert.Spec.lnOut (V c main_v44) (V c main_v45) (V c main_v5_1) (V c main_v46) (V c main_v47) :=
  (dat1 (F := Ideal) V c).arrAt_eq_of_cover 5
    (Cert.Spec.lnOut (V c main_v44) (V c main_v45) (V c main_v5_1) (V c main_v46) (V c main_v47))
    (fun t _ => flushed_eq V c t) cover

end Cert.Bridge.Blocks1

end
-- ==== Proof.HostK.lean ====
/-
  The host operations around the kernel's two regions, read as values: before the first region the arguments are untouched and the residual's bias is reshaped to a row; between the regions the edge aggregation (`Cert.Bridge.agg`) is applied to the first region's first output, the three remaining vectors are reshaped to rows, and the first region's second output is left as it is.
-/
import proofs.«109868_j30906584662560_1_alg».proof.Proof.Gen.KernelIdeal.Frame
import proofs.«109868_j30906584662560_1_alg».proof.Proof.Agg
import proofs.«109868_j30906584662560_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run

set_option maxRecDepth 16384

noncomputable section

namespace Cert.Bridge.HostK

open Cert.KernelIdeal Cert.KernelIdeal.Gen Idealize.ShloMosaic Idealize.ShloMosaic.TcCoe Idealize.SL.Sem Idealize.ShloMosaic.ValueIdx
open Idealize.ShloMosaic.Pipeline (Dat)
open Idealize.ShloMosaic.StableHlo

/-- No operation of a literal list writes the given reference: each operation's written reference differs from it. -/
local macro "no_write" : tactic => `(tactic| (
  refine List.forall_iff_forall_mem.mp ?_
  simp only [hostOps0, hostOps1, hostOps1_1, hostOps1_2, List.Forall, StableHlo.nullary_writes, StableHlo.unary_writes,
    StableHlo.binary_writes, StableHlo.ternary_writes, StableHlo.reshape_writes, Finset.mem_singleton]
  repeat' apply And.intro
  all_goals exact StableHlo.devRef_ne_of_ne (by decide)))

/-- Inside the operands of a concatenation: each operation's result at its own reference is its function's value, at any other reference what was there before. -/
local macro "results_rw" : tactic => `(tactic| (
  repeat (first
    | rw [nullary_result] | rw [unary_result] | rw [binary_result] | rw [ternary_result] | rw [reshape_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide))))

/-- A vector of 128 entries reshaped to a one-row matrix is that vector laid out as a row. -/
private theorem shapeCast_row (v : FVec Ideal Cert.Spec.SO .f32) (h : Cert.Spec.SO.ShapeCasts Cert.Spec.S1xO) :
    shapeCast Cert.Spec.S1xO v h = Cert.Spec.row v := by
  funext i
  rw [eq_ix2 i]
  exact shapeCast_a_1a_apply v h (i 0) (i 1)

section Generic

variable {F : FTy → Type} [FloatOps F] (m : (ℓ : Loc nD τ sig) → Buf (Elt F) ℓ) (ρ : Dev nD → PrngReg)

/-- A reference that neither the first stretch of host operations nor the first region writes holds, at that region's exit, what was launched. -/
private theorem W2_launch (c : Dev nD) (a : Ref sig .tc) (h0 : ∀ w, Pipeline.arrRef spec0 w ≠ a)
    (h1 : ∀ op ∈ (hostOps0 : List (HloOp τ sig (Elt F))), (Proc.devRef .tc a : DevRef τ sig) ∉ op.writes) :
    W2 m ρ c (Proc.devRef .tc a) = m ((c.tc : Thread nD τ).loc a) :=
  (W2_of_ne m ρ c a h0).trans ((StableHlo.after_of_forall_not_mem (b := Proc.devRef .tc a) _ _ h1).trans rfl)

/-- At the first region's exit the edge list's two rows, cut out and flattened before it, are still there. -/
private theorem W2_v1 (c : Dev nD) :
    W2 m ρ c (Proc.devRef .tc main_v1) = Cert.ReferenceIdeal.ReadP.val_main_v1 (F := F) (m ((c.tc : Thread nD τ).loc main_arg1)) := by
  rw [W2_of_ne m ρ c main_v1 (by decide)]
  show StableHlo.after hostOps0 (W0 m ρ c) (Proc.devRef .tc main_v1) = _
  simp only [hostOps0]
  after_results
  rfl
private theorem W2_v3 (c : Dev nD) :
    W2 m ρ c (Proc.devRef .tc main_v3) = Cert.ReferenceIdeal.ReadP.val_main_v3 (F := F) (m ((c.tc : Thread nD τ).loc main_arg1)) := by
  rw [W2_of_ne m ρ c main_v3 (by decide)]
  show StableHlo.after hostOps0 (W0 m ρ c) (Proc.devRef .tc main_v3) = _
  simp only [hostOps0]
  after_results
  rfl

/-- The second region's first operand, over any float model: the host operations between the regions, composed, are the edge aggregation. -/
private theorem v44_gen (c : Dev nD) :
    W5 m ρ c (Proc.devRef .tc main_v44)
      = Cert.Bridge.agg (F := F) (W2 m ρ c (Proc.devRef .tc main_v5_0)) (m ((c.tc : Thread nD τ).loc main_arg1)) := by
  show StableHlo.after hostOps1_2 (StableHlo.after hostOps1_1 (StableHlo.after hostOps1 (W2 m ρ c))) (Proc.devRef .tc main_v44) = _
  simp only [hostOps1_2, hostOps1_1, hostOps1]
  after_results_simp
  results_rw
  rw [W2_v1, W2_v3]
  simp only [TRef.ofBuf, TRef.toBuf, cast_eq]
  rfl

end Generic

variable (m : (ℓ : Loc nD τ sig) → Buf (Elt Ideal) ℓ) (ρ : Dev nD → PrngReg)

/-- Entering the first region the three argument arrays it reads are as launched. -/
theorem V1_arg0 (c : Dev nD) : V1 m ρ c main_arg0 = m ((c.tc : Thread nD τ).loc main_arg0) := by
  show StableHlo.after hostOps0 (W0 m ρ c) (Proc.devRef .tc main_arg0) = _
  exact (StableHlo.after_of_forall_not_mem (b := Proc.devRef .tc main_arg0) _ _ (by no_write)).trans rfl
theorem V1_arg2 (c : Dev nD) : V1 m ρ c main_arg2 = m ((c.tc : Thread nD τ).loc main_arg2) := by
  show StableHlo.after hostOps0 (W0 m ρ c) (Proc.devRef .tc main_arg2) = _
  exact (StableHlo.after_of_forall_not_mem (b := Proc.devRef .tc main_arg2) _ _ (by no_write)).trans rfl
theorem V1_arg4 (c : Dev nD) : V1 m ρ c main_arg4 = m ((c.tc : Thread nD τ).loc main_arg4) := by
  show StableHlo.after hostOps0 (W0 m ρ c) (Proc.devRef .tc main_arg4) = _
  exact (StableHlo.after_of_forall_not_mem (b := Proc.devRef .tc main_arg4) _ _ (by no_write)).trans rfl
/-- … and the residual's bias has been reshaped to a row. -/
theorem V1_v4 (c : Dev nD) : V1 m ρ c main_v4 = Cert.Spec.row (m ((c.tc : Thread nD τ).loc main_arg5)) := by
  show StableHlo.after hostOps0 (W0 m ρ c) (Proc.devRef .tc main_v4) = _
  simp only [hostOps0]
  after_results
  exact shapeCast_row (m ((c.tc : Thread nD τ).loc main_arg5)) shapeCasts_S128_S1x128

/-- Entering the second region its first operand is the edge aggregate of the first region's first output. -/
theorem V5_v44 (c : Dev nD) :
    V5 m ρ c main_v44 = Cert.Bridge.agg (F := Ideal) (V2 m ρ c main_v5_0) (m ((c.tc : Thread nD τ).loc main_arg1)) := by
  exact v44_gen (F := Ideal) m ρ c
/-- … the bias, the scale and the shift have been reshaped to rows, -/
theorem V5_v45 (c : Dev nD) : V5 m ρ c main_v45 = Cert.Spec.row (m ((c.tc : Thread nD τ).loc main_arg3)) := by
  show StableHlo.after hostOps1_2 (W4 m ρ c) (Proc.devRef .tc main_v45) = _
  simp only [hostOps1_2]
  after_results
  rw [W2_launch m ρ c main_arg3 (by decide) (by no_write)]
  exact shapeCast_row (m ((c.tc : Thread nD τ).loc main_arg3)) shapeCasts_S128_S1x128
theorem V5_v46 (c : Dev nD) : V5 m ρ c main_v46 = Cert.Spec.row (m ((c.tc : Thread nD τ).loc main_arg6)) := by
  show StableHlo.after hostOps1_2 (W4 m ρ c) (Proc.devRef .tc main_v46) = _
  simp only [hostOps1_2]
  after_results
  rw [W2_launch m ρ c main_arg6 (by decide) (by no_write)]
  exact shapeCast_row (m ((c.tc : Thread nD τ).loc main_arg6)) shapeCasts_S128_S1x128
theorem V5_v47 (c : Dev nD) : V5 m ρ c main_v47 = Cert.Spec.row (m ((c.tc : Thread nD τ).loc main_arg7)) := by
  show StableHlo.after hostOps1_2 (W4 m ρ c) (Proc.devRef .tc main_v47) = _
  simp only [hostOps1_2]
  after_results
  rw [W2_launch m ρ c main_arg7 (by decide) (by no_write)]
  exact shapeCast_row (m ((c.tc : Thread nD τ).loc main_arg7)) shapeCasts_S128_S1x128
/-- … and the first region's second output is as that region left it. -/
theorem V5_v5_1 (c : Dev nD) : V5 m ρ c main_v5_1 = V2 m ρ c main_v5_1 := by
  show StableHlo.after hostOps1_2 (StableHlo.after hostOps1_1 (StableHlo.after hostOps1 (W2 m ρ c))) (Proc.devRef .tc main_v5_1) = _
  rw [StableHlo.after_of_forall_not_mem (b := Proc.devRef .tc main_v5_1) _ _ (by no_write),
    StableHlo.after_of_forall_not_mem (b := Proc.devRef .tc main_v5_1) _ _ (by no_write),
    StableHlo.after_of_forall_not_mem (b := Proc.devRef .tc main_v5_1) _ _ (by no_write)]

end Cert.Bridge.HostK

end
-- ==== Proof.RefValue.lean ====
/-
  The reference, read index by index at the extended reals: its two matrix products are the plain sums, its bias broadcasts read the bias at the column, its two row reductions are sums over the 128 lanes from a zero initial value, so its result is `Cert.Spec.lnOut` of its aggregate, its bias, its residual branch, its scale and its shift.
-/
import proofs.«109868_j30906584662560_1_alg».proof.Proof.RefRead
import proofs.«109868_j30906584662560_1_alg».proof.Proof.Agg
import proofs.«109868_j30906584662560_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Bridge.Ref

open Cert.ReferenceIdeal Cert.ReferenceIdeal.Gen Cert.ReferenceIdeal.ReadP Idealize.ShloMosaic Idealize.ShloMosaic.TcCoe Idealize.SL.Sem Idealize.ShloMosaic.ValueIdx

/-- The reference's feature transform is the matrix product. -/
theorem ref_mm (x0 : (⟨S100000x256, .f32⟩ : BufTy).Contents (Elt Ideal)) (x2 : (⟨S256x128, .f32⟩ : BufTy).Contents (Elt Ideal)) :
    val_main_v34 (F := Ideal) x0 x2 = Cert.Spec.mm x0 x2 := by
  funext i
  rw [val_main_v34_apply]
  unfold Cert.Spec.mm
  refine Finset.sum_congr rfl fun k _ => ?_
  have el : lidx_main_v34 i k = ix2 (i 0) k :=
    funext fun a => Fin.ext (by match a with | ⟨0, _⟩ => rfl | ⟨1, _⟩ => rfl)
  have er : ridx_main_v34 i k = ix2 k (i 1) :=
    funext fun a => Fin.ext (by match a with | ⟨0, _⟩ => rfl | ⟨1, _⟩ => rfl)
  rw [el, er]
  rfl

/-- The reference's residual branch is the matrix product plus the bias, read as a row. -/
theorem ref_mmb (x0 : (⟨S100000x256, .f32⟩ : BufTy).Contents (Elt Ideal)) (x4 : (⟨S256x128, .f32⟩ : BufTy).Contents (Elt Ideal))
    (x5 : (⟨S128, .f32⟩ : BufTy).Contents (Elt Ideal)) :
    val_main_v7 (F := Ideal) x0 x4 x5 = Cert.Spec.mmb x0 x4 (Cert.Spec.row x5) := by
  funext i
  rw [val_main_v7_apply, val_main_v4_apply, val_main_v6_apply, val_main_v5_apply]
  unfold Cert.Spec.mmb Cert.Spec.mm
  have eb : idx_main_v5 (idx_main_v6 i) = ix1 (i 1) :=
    funext fun a => Fin.ext (by match a with | ⟨0, _⟩ => rfl)
  rw [eb, Ideal.addf_def]
  congr 1
  refine Finset.sum_congr rfl fun k _ => ?_
  have el : lidx_main_v4 i k = ix2 (i 0) k :=
    funext fun a => Fin.ext (by match a with | ⟨0, _⟩ => rfl | ⟨1, _⟩ => rfl)
  have er : ridx_main_v4 i k = ix2 k (i 1) :=
    funext fun a => Fin.ext (by match a with | ⟨0, _⟩ => rfl | ⟨1, _⟩ => rfl)
  rw [el, er]
  rfl

/-- The row that is normalised, entry by entry: aggregate plus bias plus residual branch. -/
private theorem ref_h (x0 : (⟨S100000x256, .f32⟩ : BufTy).Contents (Elt Ideal)) (x1 : (⟨S2x1600000, .i32⟩ : BufTy).Contents (Elt Ideal))
    (x2 : (⟨S256x128, .f32⟩ : BufTy).Contents (Elt Ideal)) (x3 : (⟨S128, .f32⟩ : BufTy).Contents (Elt Ideal))
    (x4 : (⟨S256x128, .f32⟩ : BufTy).Contents (Elt Ideal)) (x5 : (⟨S128, .f32⟩ : BufTy).Contents (Elt Ideal)) (r : Fin 100000) (k : Fin 128) :
    val_main_v51 (F := Ideal) x0 x1 x2 x3 x4 x5 (ix2 r k) = Cert.Spec.hRow (val_main_v47 (F := Ideal) x0 x1 x2) (Cert.Spec.row x3) (val_main_v7 (F := Ideal) x0 x4 x5) r k := by
  rw [val_main_v51_apply, val_main_v50_apply, val_main_v49_apply, val_main_v48_apply]
  have eb : idx_main_v48 (idx_main_v49 (ix2 r k)) = ix1 k :=
    funext fun a => Fin.ext (by match a with | ⟨0, _⟩ => rfl)
  rw [eb, Ideal.addf_def, Ideal.addf_def]
  rfl

/-- The first row reduction is the sum of the row over its 128 lanes. -/
private theorem ref_sum (x0 : (⟨S100000x256, .f32⟩ : BufTy).Contents (Elt Ideal)) (x1 : (⟨S2x1600000, .i32⟩ : BufTy).Contents (Elt Ideal))
    (x2 : (⟨S256x128, .f32⟩ : BufTy).Contents (Elt Ideal)) (x3 : (⟨S128, .f32⟩ : BufTy).Contents (Elt Ideal))
    (x4 : (⟨S256x128, .f32⟩ : BufTy).Contents (Elt Ideal)) (x5 : (⟨S128, .f32⟩ : BufTy).Contents (Elt Ideal)) (r : Fin 100000) :
    val_main_v52 (F := Ideal) x0 x1 x2 x3 x4 x5 (ix1 r) = ∑ k : Fin 128, Cert.Spec.hRow (val_main_v47 (F := Ideal) x0 x1 x2) (Cert.Spec.row x3) (val_main_v7 (F := Ideal) x0 x4 x5) r k := by
  rw [val_main_v52_apply, val_main_cst_9_apply, Ideal.ofBits_def, Ideal.ofBits_zero_f32, zero_add]
  refine Finset.sum_congr rfl fun k _ => ?_
  have e : idx_main_v52 (ix1 r) k = ix2 r k :=
    funext fun a => Fin.ext (by match a with | ⟨0, _⟩ => rfl | ⟨1, _⟩ => rfl)
  rw [e, ref_h]

/-- The mean column holds the mean of the row. -/
private theorem ref_mean (x0 : (⟨S100000x256, .f32⟩ : BufTy).Contents (Elt Ideal)) (x1 : (⟨S2x1600000, .i32⟩ : BufTy).Contents (Elt Ideal))
    (x2 : (⟨S256x128, .f32⟩ : BufTy).Contents (Elt Ideal)) (x3 : (⟨S128, .f32⟩ : BufTy).Contents (Elt Ideal))
    (x4 : (⟨S256x128, .f32⟩ : BufTy).Contents (Elt Ideal)) (x5 : (⟨S128, .f32⟩ : BufTy).Contents (Elt Ideal)) (r : Fin 100000) :
    val_main_v55 (F := Ideal) x0 x1 x2 x3 x4 x5 (ix2 r (0 : Fin 1)) = Cert.Spec.rowMean (Cert.Spec.hRow (val_main_v47 (F := Ideal) x0 x1 x2) (Cert.Spec.row x3) (val_main_v7 (F := Ideal) x0 x4 x5) r) := by
  rw [val_main_v55_apply, val_main_v53_apply, val_main_v54_apply, val_main_cst_10_apply]
  have e : idx_main_v53 (ix2 r (0 : Fin 1)) = ix1 r :=
    funext fun a => Fin.ext (by match a with | ⟨0, _⟩ => rfl)
  rw [e, ref_sum, Ideal.hostDivf_def, Ideal.ofBits_def]
  rfl

/-- The centred row used by the variance. -/
private theorem ref_dev (x0 : (⟨S100000x256, .f32⟩ : BufTy).Contents (Elt Ideal)) (x1 : (⟨S2x1600000, .i32⟩ : BufTy).Contents (Elt Ideal))
    (x2 : (⟨S256x128, .f32⟩ : BufTy).Contents (Elt Ideal)) (x3 : (⟨S128, .f32⟩ : BufTy).Contents (Elt Ideal))
    (x4 : (⟨S256x128, .f32⟩ : BufTy).Contents (Elt Ideal)) (x5 : (⟨S128, .f32⟩ : BufTy).Contents (Elt Ideal)) (r : Fin 100000) (k : Fin 128) :
    val_main_v57 (F := Ideal) x0 x1 x2 x3 x4 x5 (ix2 r k) = Cert.Spec.hRow (val_main_v47 (F := Ideal) x0 x1 x2) (Cert.Spec.row x3) (val_main_v7 (F := Ideal) x0 x4 x5) r k - Cert.Spec.rowMean (Cert.Spec.hRow (val_main_v47 (F := Ideal) x0 x1 x2) (Cert.Spec.row x3) (val_main_v7 (F := Ideal) x0 x4 x5) r) := by
  rw [val_main_v57_apply, val_main_v56_apply]
  have e : idx_main_v56 (ix2 r k) = ix2 r (0 : Fin 1) :=
    funext fun a => Fin.ext (by match a with | ⟨0, _⟩ => rfl | ⟨1, _⟩ => rfl)
  rw [e, ref_h, ref_mean, Ideal.subf_def]

/-- The centred row used by the normalisation. -/
private theorem ref_dev' (x0 : (⟨S100000x256, .f32⟩ : BufTy).Contents (Elt Ideal)) (x1 : (⟨S2x1600000, .i32⟩ : BufTy).Contents (Elt Ideal))
    (x2 : (⟨S256x128, .f32⟩ : BufTy).Contents (Elt Ideal)) (x3 : (⟨S128, .f32⟩ : BufTy).Contents (Elt Ideal))
    (x4 : (⟨S256x128, .f32⟩ : BufTy).Contents (Elt Ideal)) (x5 : (⟨S128, .f32⟩ : BufTy).Contents (Elt Ideal)) (r : Fin 100000) (k : Fin 128) :
    val_main_v64 (F := Ideal) x0 x1 x2 x3 x4 x5 (ix2 r k) = Cert.Spec.hRow (val_main_v47 (F := Ideal) x0 x1 x2) (Cert.Spec.row x3) (val_main_v7 (F := Ideal) x0 x4 x5) r k - Cert.Spec.rowMean (Cert.Spec.hRow (val_main_v47 (F := Ideal) x0 x1 x2) (Cert.Spec.row x3) (val_main_v7 (F := Ideal) x0 x4 x5) r) := by
  rw [val_main_v64_apply, val_main_v63_apply]
  have e : idx_main_v63 (ix2 r k) = ix2 r (0 : Fin 1) :=
    funext fun a => Fin.ext (by match a with | ⟨0, _⟩ => rfl | ⟨1, _⟩ => rfl)
  rw [e, ref_h, ref_mean, Ideal.subf_def]

/-- The variance column holds the variance of the row about its mean. -/
private theorem ref_var (x0 : (⟨S100000x256, .f32⟩ : BufTy).Contents (Elt Ideal)) (x1 : (⟨S2x1600000, .i32⟩ : BufTy).Contents (Elt Ideal))
    (x2 : (⟨S256x128, .f32⟩ : BufTy).Contents (Elt Ideal)) (x3 : (⟨S128, .f32⟩ : BufTy).Contents (Elt Ideal))
    (x4 : (⟨S256x128, .f32⟩ : BufTy).Contents (Elt Ideal)) (x5 : (⟨S128, .f32⟩ : BufTy).Contents (Elt Ideal)) (r : Fin 100000) :
    val_main_v62 (F := Ideal) x0 x1 x2 x3 x4 x5 (ix2 r (0 : Fin 1)) = Cert.Spec.rowVar (Cert.Spec.hRow (val_main_v47 (F := Ideal) x0 x1 x2) (Cert.Spec.row x3) (val_main_v7 (F := Ideal) x0 x4 x5) r) := by
  rw [val_main_v62_apply, val_main_v60_apply, val_main_v61_apply, val_main_cst_12_apply]
  have e : idx_main_v60 (ix2 r (0 : Fin 1)) = ix1 r :=
    funext fun a => Fin.ext (by match a with | ⟨0, _⟩ => rfl)
  rw [e, val_main_v59_apply, val_main_cst_11_apply, Ideal.ofBits_def, Ideal.ofBits_zero_f32, zero_add,
    Ideal.hostDivf_def, Ideal.ofBits_def]
  have hs : ∑ k : Fin 128, val_main_v58 (F := Ideal) x0 x1 x2 x3 x4 x5 (idx_main_v59 (ix1 r) k)
      = ∑ k : Fin 128, (Cert.Spec.hRow (val_main_v47 (F := Ideal) x0 x1 x2) (Cert.Spec.row x3) (val_main_v7 (F := Ideal) x0 x4 x5) r k - Cert.Spec.rowMean (Cert.Spec.hRow (val_main_v47 (F := Ideal) x0 x1 x2) (Cert.Spec.row x3) (val_main_v7 (F := Ideal) x0 x4 x5) r)) * (Cert.Spec.hRow (val_main_v47 (F := Ideal) x0 x1 x2) (Cert.Spec.row x3) (val_main_v7 (F := Ideal) x0 x4 x5) r k - Cert.Spec.rowMean (Cert.Spec.hRow (val_main_v47 (F := Ideal) x0 x1 x2) (Cert.Spec.row x3) (val_main_v7 (F := Ideal) x0 x4 x5) r)) := by
    refine Finset.sum_congr rfl fun k _ => ?_
    have e' : idx_main_v59 (ix1 r) k = ix2 r k :=
      funext fun a => Fin.ext (by match a with | ⟨0, _⟩ => rfl | ⟨1, _⟩ => rfl)
    rw [e', val_main_v58_apply, ref_dev, Ideal.mulf_def]
  rw [hs]
  unfold Cert.Spec.rowVar Cert.Spec.lanes
  rfl

/-- The reference's result is the layer output of its aggregate, bias, residual branch, scale and shift. -/
theorem ref_out (x0 : (⟨S100000x256, .f32⟩ : BufTy).Contents (Elt Ideal)) (x1 : (⟨S2x1600000, .i32⟩ : BufTy).Contents (Elt Ideal))
    (x2 : (⟨S256x128, .f32⟩ : BufTy).Contents (Elt Ideal)) (x3 : (⟨S128, .f32⟩ : BufTy).Contents (Elt Ideal))
    (x4 : (⟨S256x128, .f32⟩ : BufTy).Contents (Elt Ideal)) (x5 x6 x7 : (⟨S128, .f32⟩ : BufTy).Contents (Elt Ideal)) :
    val_main_v76 (F := Ideal) x0 x1 x2 x3 x4 x5 x6 x7
      = Cert.Spec.lnOut (val_main_v47 (F := Ideal) x0 x1 x2) (Cert.Spec.row x3) (val_main_v7 (F := Ideal) x0 x4 x5)
          (Cert.Spec.row x6) (Cert.Spec.row x7) := by
  funext i
  obtain ⟨r, k, rfl⟩ : ∃ (r : Fin 100000) (k : Fin 128), i = ix2 r k := ⟨i 0, i 1, eq_ix2 i⟩
  rw [val_main_v76_apply, val_main_v75_apply, val_main_v72_apply, val_main_v69_apply, val_main_v68_apply,
    val_main_v67_apply, val_main_v66_apply, val_main_v65_apply, val_main_cst_13_apply, val_main_v71_apply,
    val_main_v70_apply, val_main_v74_apply, val_main_v73_apply, val_main_call1_v0_apply, val_main_call1_cst_apply]
  have e68 : idx_main_v68 (ix2 r k) = ix2 r (0 : Fin 1) :=
    funext fun a => Fin.ext (by match a with | ⟨0, _⟩ => rfl | ⟨1, _⟩ => rfl)
  have e70 : idx_main_v70 (idx_main_v71 (ix2 r k)) = ix1 k :=
    funext fun a => Fin.ext (by match a with | ⟨0, _⟩ => rfl)
  have e73 : idx_main_v73 (idx_main_v74 (ix2 r k)) = ix1 k :=
    funext fun a => Fin.ext (by match a with | ⟨0, _⟩ => rfl)
  rw [e68, e70, e73, ref_dev', ref_var]
  simp only [Ideal.maximumf_def, Ideal.addf_def, Ideal.mulf_def, Ideal.hostUnary_rsqrt_def, Ideal.ofBits_def,
    Ideal.ofBits_zero_f32]
  unfold Cert.Spec.lnOut Cert.Spec.lnRow Cert.Spec.eps
  rfl

end Cert.Bridge.Ref

end
-- ==== Proof.lean ====
/-
  A graph-convolution layer with a residual branch, a layer normalisation and a rectifier: the kernel program against its
  plain reference, equal over the extended reals.

  The kernel program runs in two tiled regions with the graph's edge aggregation between them on the host. Region one
  forms, row block by row block, the two matrix products x·W and x·Wr + br (its casts to a shorter float are the identity on
  the extended reals and the matrix unit's product into a zero accumulator is the plain sum: `Proof/Pay0.lean`; its twenty
  blocks tile the 100000 rows: `Proof/Blocks0.lean`). The host then aggregates x·W over the edges with self-loops and the
  symmetric degree normalisation — one chain of gathers and scatter-adds that BOTH programs apply, named once and never
  opened (`Proof/Agg.lean`, `Proof/HostK.lean`). Region two adds the bias and the residual to each row, normalises the row by
  its own mean and variance over the 128 lanes, scales, shifts and rectifies (`Proof/Pay1.lean`); a row's result depends on
  that row alone, so its twenty blocks again restrict one whole-array function (`Proof/Blocks1.lean`).
  The reference computes the same function in whole-array operations (`Proof/RefValue.lean`): its `dot_general`s are the same
  sums, its row reductions the same sums over the lanes from a zero initial value, its quotient by 128 and its reciprocal
  square root the same operations. No algebraic law is needed beyond reading both sides index by index — the two programs
  associate every sum and product alike — so the finiteness of the inputs is never used.
-/
import proofs.«109868_j30906584662560_1_alg».proof.Defs
import proofs.«109868_j30906584662560_1_alg».proof.Proof.Gen.Kernel
import proofs.«109868_j30906584662560_1_alg».proof.Proof.Gen.Kernel.Frame
import proofs.«109868_j30906584662560_1_alg».proof.Proof.Gen.KernelIdeal
import proofs.«109868_j30906584662560_1_alg».proof.Proof.Gen.KernelIdeal.Frame
import proofs.«109868_j30906584662560_1_alg».proof.Proof.Gen.ReferenceIdeal
import proofs.«109868_j30906584662560_1_alg».proof.Proof.Gen.Pre_finite_inputs
import proofs.«109868_j30906584662560_1_alg».proof.Proof.RefRun
import proofs.«109868_j30906584662560_1_alg».proof.Proof.RefRead
import proofs.«109868_j30906584662560_1_alg».proof.Proof.KernelRun
import proofs.«109868_j30906584662560_1_alg».proof.Proof.Spec
import proofs.«109868_j30906584662560_1_alg».proof.Proof.Agg
import proofs.«109868_j30906584662560_1_alg».proof.Proof.Blocks0
import proofs.«109868_j30906584662560_1_alg».proof.Proof.Blocks1
import proofs.«109868_j30906584662560_1_alg».proof.Proof.HostK
import proofs.«109868_j30906584662560_1_alg».proof.Proof.RefValue
import Idealize.ShloMosaic.Adequacy
import Idealize.ShloMosaic.Init

set_option maxRecDepth 16384

noncomputable section

namespace Cert.Proof

open Idealize.ShloMosaic Idealize.ShloMosaic.TcCoe Idealize.SL.Sem

/-- The layer's output as one function of the eight argument arrays. -/
def layer (x : FVec Ideal Cert.Spec.SNxI .f32) (ei : IVec ⟨2, ![2, 1600000]⟩ 32) (w : FVec Ideal Cert.Spec.SIxO .f32)
    (b : FVec Ideal Cert.Spec.SO .f32) (wr : FVec Ideal Cert.Spec.SIxO .f32) (br g e : FVec Ideal Cert.Spec.SO .f32) :
    FVec Ideal Cert.Spec.SNxO .f32 :=
  Cert.Spec.lnOut (Cert.Bridge.agg (F := Ideal) (Cert.Spec.mm x w) ei) (Cert.Spec.row b)
    (Cert.Spec.mmb x wr (Cert.Spec.row br)) (Cert.Spec.row g) (Cert.Spec.row e)

section Kernel

open Cert.KernelIdeal Cert.KernelIdeal.Gen

variable (m : (ℓ : Loc Cert.KernelIdeal.nD Cert.KernelIdeal.τ Cert.KernelIdeal.sig) → Buf (Elt Ideal) ℓ)
  (ρ : Dev Cert.KernelIdeal.nD → PrngReg)

/-- What the second region leaves in the result array is the layer's output of the launch arguments: the region's own
    value at its entry contents, those contents read back through the host operations to the first region's outputs, and
    those to the arguments. -/
theorem kernel_value (c : Dev Cert.KernelIdeal.nD) :
    (dat1 (F := Ideal) (V5 m ρ) c).arrAt 5 cfg1.N
      = layer (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7)) := by
  have e4 : V2 m ρ c main_v5_0 = (dat0 (F := Ideal) (V1 m ρ) c).arrAt 4 cfg0.N := (hF0 m ρ c 4).symm
  have e5 : V2 m ρ c main_v5_1 = (dat0 (F := Ideal) (V1 m ρ) c).arrAt 5 cfg0.N := (hF0 m ρ c 5).symm
  rw [Cert.Bridge.Blocks1.final1_5 (V5 m ρ) c, Cert.Bridge.HostK.V5_v44 m ρ c, Cert.Bridge.HostK.V5_v45 m ρ c,
    Cert.Bridge.HostK.V5_v5_1 m ρ c, Cert.Bridge.HostK.V5_v46 m ρ c, Cert.Bridge.HostK.V5_v47 m ρ c, e4, e5,
    Cert.Bridge.Blocks0.final0_4 (V1 m ρ) c, Cert.Bridge.Blocks0.final0_5 (V1 m ρ) c,
    Cert.Bridge.HostK.V1_arg0 m ρ c, Cert.Bridge.HostK.V1_arg2 m ρ c, Cert.Bridge.HostK.V1_arg4 m ρ c,
    Cert.Bridge.HostK.V1_v4 m ρ c]
  rfl

end Kernel

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.ValueP.run (F := Ideal) m ρ)

/-- Both programs, run from memories that agree on the arguments, end with the layer's output of those arguments. -/
theorem algebraic : Cert.algebraic_KernelIdeal_ReferenceIdeal := by
  intro m ρ m' ρ' _ hagree
  refine ⟨fun c => layer (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono (fun r h c => ⟨(h c).1.trans (kernel_value m ρ c), (h c).2⟩)
      (Cert.KernelIdeal.Gen.run_out (F := Ideal) m ρ)
  · refine (θ_run Cert.ReferenceIdeal.defs _ _).mono (fun _ h c => ⟨(h c).1.trans ?_, (h c).2⟩)
      (Cert.ReferenceIdeal.ValueP.run (F := Ideal) m' ρ')
    obtain ⟨h0, h1, h2, h3, h4, h5, h6, h7⟩ := hagree c
    rw [Cert.ReferenceIdeal.ReadP.val_main_v76_eq, Cert.Bridge.Ref.ref_out, Cert.Bridge.val_main_v47_eq,
      Cert.Bridge.Ref.ref_mm, Cert.Bridge.Ref.ref_mmb, h0, h1, h2, h3, h4, h5, h6, h7]
    rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
